-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3x1x128 : Shape := ⟨4, ![32, 3, 1, 128]⟩
abbrev S1x1x512x512 : Shape := ⟨4, ![1, 1, 512, 512]⟩
abbrev S1x1x1x128 : Shape := ⟨4, ![1, 1, 1, 128]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S1x128 : Shape := ⟨2, ![1, 128]⟩
abbrev S32x3x1x1 : Shape := ⟨4, ![32, 3, 1, 1]⟩
abbrev S32x3 : Shape := ⟨2, ![32, 3]⟩
abbrev S_ : Shape := ⟨0, ![]⟩
abbrev S32 : Shape := ⟨1, ![32]⟩

abbrev nBuf : Space → Nat
  | .hbm => 44
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x1x128, .f32⟩
  | .hbm, ⟨3, _⟩ => ⟨S32x3x1x1, .f32⟩
  | .hbm, ⟨4, _⟩ => ⟨S32x3, .f32⟩
  | .hbm, ⟨5, _⟩ => ⟨S32x3x1x1, .f32⟩
  | .hbm, ⟨6, _⟩ => ⟨S32x3, .f32⟩
  | .hbm, ⟨7, _⟩ => ⟨S32x3x1x1, .f32⟩
  | .hbm, ⟨8, _⟩ => ⟨S32x3, .f32⟩
  | .hbm, ⟨9, _⟩ => ⟨S32x3x1x1, .f32⟩
  | .hbm, ⟨10, _⟩ => ⟨S32x3, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x1x128, .f32⟩
  | .local _ .vmem, ⟨5, _⟩ => ⟨S1x1x1x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  shapeCasts_S512_S512x1 : S512.ShapeCasts S512x1
  broadcasts_S512x1_S512x512 : S512x1.Broadcasts S512x512
  broadcasts_S1x512_S512x512 : S1x512.Broadcasts S512x512
  reduces_S512x512_S512_2 : S512x512.Reduces [0] S512
  iota_S1x128_d1_w32 : S1x128.Iotas .tc 32 [1]
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  shapeCasts_S1x128_S1x1x1x128 : S1x128.ShapeCasts S1x1x1x128
  slices_S32x3x1x128_S32x3x1x1_0_0_0_0 : S32x3x1x128.Slices ![0, 0, 0, 0] S32x3x1x1
  shapeCasts_S32x3x1x1_S32x3 : S32x3x1x1.ShapeCasts S32x3
  slices_S32x3x1x128_S32x3x1x1_0_0_0_1 : S32x3x1x128.Slices ![0, 0, 0, 1] S32x3x1x1
  slices_S32x3x1x128_S32x3x1x1_0_0_0_2 : S32x3x1x128.Slices ![0, 0, 0, 2] S32x3x1x1
  slices_S32x3x1x128_S32x3x1x1_0_0_0_3 : S32x3x1x128.Slices ![0, 0, 0, 3] S32x3x1x1
  reducesTo_S32x3_S32_d1 : S32x3.ReducesTo [1] S32
  h_S_ : 0 < S_.numel
  bcast_S_S32 : S_.BroadcastsInDim S32 (![] : Fin 0 → Fin S32.rank)
  reducesTo_S32_S_d0 : S32.ReducesTo [0] S_
  reducesTo_S32x3_S_d0_1 : S32x3.ReducesTo [0, 1] S_
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x3x512x512.size a
  hwx0_0 : ∀ i : grid0.Coords, EltTy.bits .f32 = 32 ∨ (Rect.block (s := S32x3x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x3x512x512.size a
  hwx0_1 : ∀ i : grid0.Coords, EltTy.bits .f32 = 32 ∨ (Rect.block (s := S32x3x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S32x3x1x128.size a
  hwx0_2 : ∀ i : grid0.Coords, EltTy.bits .f32 = 32 ∨ (Rect.block (s := S32x3x1x128) S1x1x1x128.size (cc0_transform_2 i) (hinb0_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x786432 : Shape := ⟨2, ![32, 786432]⟩
abbrev S_ : Shape := ⟨0, ![]⟩
abbrev S32 : Shape := ⟨1, ![32]⟩
abbrev S32x3x512 : Shape := ⟨3, ![32, 3, 512]⟩
abbrev S32x3x512x1 : Shape := ⟨4, ![32, 3, 512, 1]⟩
abbrev S32x3x1x512 : Shape := ⟨4, ![32, 3, 1, 512]⟩
abbrev S32x3 : Shape := ⟨2, ![32, 3]⟩

abbrev nBuf : Space → Nat
  | .hbm => 67
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x786432, .f32⟩
  | .hbm, ⟨3, _⟩ => ⟨S32x786432, .f32⟩
  | .hbm, ⟨4, _⟩ => ⟨S32x786432, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x3x512x512, .f32⟩
  | .hbm, ⟨30, _⟩ => ⟨S_, .f32⟩
  | .hbm, ⟨31, _⟩ => ⟨S32x3x512, .f32⟩
  | .hbm, ⟨32, _⟩ => ⟨S32x3x512x512, .f32⟩
  | .hbm, ⟨33, _⟩ => ⟨S_, .f32⟩
  | .hbm, ⟨34, _⟩ => ⟨S32x3x512, .f32⟩
  | .hbm, ⟨35, _⟩ => ⟨S32x3x512x512, .f32⟩
  | .hbm, ⟨36, _⟩ => ⟨S32x3x512x1, .f32⟩
  | .hbm, ⟨37, _⟩ => ⟨S32x3x1x512, .f32⟩
  | .hbm, ⟨38, _⟩ => ⟨S32x3x512x512, .f32⟩
  | .hbm, ⟨39, _⟩ => ⟨S32x3x512x512, .f32⟩
  | .hbm, ⟨40, _⟩ => ⟨S32x3x512x512, .f32⟩
  | .hbm, ⟨41, _⟩ => ⟨S_, .f32⟩
  | .hbm, ⟨42, _⟩ => ⟨S32x3x512x512, .f32⟩
  | .hbm, ⟨43, _⟩ => ⟨S32x3x512x512, .f32⟩
  | .hbm, ⟨44, _⟩ => ⟨S32x3x512x512, .f32⟩
  | .hbm, ⟨45, _⟩ => ⟨S_, .f32⟩
  | .hbm, ⟨46, _⟩ => ⟨S32x3x512x512, .f32⟩
  | .hbm, ⟨47, _⟩ => ⟨S32x3x512x512, .f32⟩
  | .hbm, ⟨48, _⟩ => ⟨S32x3x512x512, .f32⟩
  | .hbm, ⟨49, _⟩ => ⟨S_, .f32⟩
  | .hbm, ⟨50, _⟩ => ⟨S32x3x512, .f32⟩
  | .hbm, ⟨51, _⟩ => ⟨S_, .f32⟩
  | .hbm, ⟨52, _⟩ => ⟨S32x3, .f32⟩
  | .hbm, ⟨53, _⟩ => ⟨S_, .f32⟩
  | .hbm, ⟨54, _⟩ => ⟨S32x3x512, .f32⟩
  | .hbm, ⟨55, _⟩ => ⟨S_, .f32⟩
  | .hbm, ⟨56, _⟩ => ⟨S32x3, .f32⟩
  | .hbm, ⟨57, _⟩ => ⟨S32x3, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_cst_15 : Ref sig .tc := ⟨.hbm, 55, rfl⟩
abbrev main_v37 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_cst_17 : Ref sig .tc := ⟨.hbm, 60, rfl⟩
abbrev main_v40 : Ref sig .tc := ⟨.hbm, 61, rfl⟩
abbrev main_cst_18 : Ref sig .tc := ⟨.hbm, 62, rfl⟩
abbrev main_v41 : Ref sig .tc := ⟨.hbm, 63, rfl⟩
abbrev main_cst_19 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  shapeCasts_S32x3x512x512_S32x786432 : S32x3x512x512.ShapeCasts S32x786432
  reducesTo_S32x786432_S32_d1 : S32x786432.ReducesTo [1] S32
  h_S_ : 0 < S_.numel
  bcast_S_S32 : S_.BroadcastsInDim S32 (![] : Fin 0 → Fin S32.rank)
  reducesTo_S32_S_d0 : S32.ReducesTo [0] S_
  reducesTo_S32x3x512x512_S32x3x512_d3 : S32x3x512x512.ReducesTo [3] S32x3x512
  bcast_S32x3x512_S32x3x512x1_0_1_2 : S32x3x512.BroadcastsInDim S32x3x512x1 (![0, 1, 2] : Fin 3 → Fin S32x3x512x1.rank)
  bcast_S32x3x512_S32x3x1x512_0_1_3 : S32x3x512.BroadcastsInDim S32x3x1x512 (![0, 1, 3] : Fin 3 → Fin S32x3x1x512.rank)
  bcast_S32x3x512x1_S32x3x512x512_0_1_2_3 : S32x3x512x1.BroadcastsInDim S32x3x512x512 (![0, 1, 2, 3] : Fin 4 → Fin S32x3x512x512.rank)
  bcast_S32x3x1x512_S32x3x512x512_0_1_2_3 : S32x3x1x512.BroadcastsInDim S32x3x512x512 (![0, 1, 2, 3] : Fin 4 → Fin S32x3x512x512.rank)
  bcast_S_S32x3x512x512 : S_.BroadcastsInDim S32x3x512x512 (![] : Fin 0 → Fin S32x3x512x512.rank)
  reducesTo_S32x3x512_S32x3_d2 : S32x3x512.ReducesTo [2] S32x3
  reducesTo_S32x3x512x512_S32x3x512_d2 : S32x3x512x512.ReducesTo [2] S32x3x512
  reducesTo_S32x3_S_d0_1 : S32x3.ReducesTo [0, 1] S_
  dot_S32x3x512x512_S32x3x512x512_S32x3x512x512_3_3_2_2_01_01_wf : DotDims.WF S32x3x512x512 S32x3x512x512 S32x3x512x512 [3] [3] [2] [2] [0, 1] [0, 1]

variable [Facts₀]

def dot_S32x3x512x512_S32x3x512x512_S32x3x512x512_3_3_2_2_01_01 : DotDims S32x3x512x512 S32x3x512x512 S32x3x512x512 where
  lhsContracting := [3]
  rhsContracting := [3]
  lhsNonContracting := [2]
  rhsNonContracting := [2]
  lhsBatch := [0, 1]
  rhsBatch := [0, 1]
  wf := dot_S32x3x512x512_S32x3x512x512_S32x3x512x512_3_3_2_2_01_01_wf

class Facts : Prop extends Facts₀ where

variable [Facts]
-- ==== Proof.LossSpec.lean ====
/-
  The dice and Hausdorff loss of two batches of images, written with plain sums, minima and maxima over the extended reals.

  An image is a 512 x 512 array; a batch holds B x C of them. For one image pair (b, c):
  * `dotSlice` is the sum over all pixels of the product of the two images, `sumSlice` the sum of one image's pixels;
  * the rows of an image are points of a 512-dimensional space; `rowDot` is the inner product of row i of one image with
    row j of another, and `dist` the distance between row i of the first and row j of the second image, computed from the
    expansion |u - v|^2 = |u|^2 + |v|^2 - 2 u.v, clamped at zero before the square root;
  * `hausdorff` is the symmetric Hausdorff distance of the two sets of rows: the larger of the two directed distances, each a
    maximum over one image's rows of the minimum over the other's.
  `packed` lays the four numbers of every image pair in lanes 0 to 3 of a 128-lane row, zero elsewhere.
  `lossOf` is the closing arithmetic: from per-batch sums of the three dice terms and the per-image Hausdorff distances,
  0.4 times the mean dice loss plus 0.6 times the mean distance.
-/
import Idealize.ShloMosaic.Lib.ValueIdx
import Idealize.ShloMosaic.PureOps.Ideal

noncomputable section

namespace Cert.LossSpec

open Idealize.ShloMosaic Idealize.ShloMosaic.ValueIdx

variable {B C : ℕ}

/-- The sum over the pixels of image (b, c) of the product of the two batches there. -/
def dotSlice (x y : FVec Ideal ⟨4, ![B, C, 512, 512]⟩ .f32) (b : Fin B) (c : Fin C) : EReal :=
  ∑ i : Fin 512, ∑ j : Fin 512, x (ix4 b c i j) * y (ix4 b c i j)

/-- The sum over the pixels of image (b, c). -/
def sumSlice (x : FVec Ideal ⟨4, ![B, C, 512, 512]⟩ .f32) (b : Fin B) (c : Fin C) : EReal :=
  ∑ i : Fin 512, ∑ j : Fin 512, x (ix4 b c i j)

/-- The inner product of row i of image (b, c) of `x` with row j of image (b, c) of `y`. -/
def rowDot (x y : FVec Ideal ⟨4, ![B, C, 512, 512]⟩ .f32) (b : Fin B) (c : Fin C) (i j : Fin 512) : EReal :=
  ∑ w : Fin 512, x (ix4 b c i w) * y (ix4 b c j w)

/-- The distance between row i of `x`'s image and row j of `y`'s: the root of |u|^2 + |v|^2 - 2 u.v, clamped at zero. -/
def dist (x y : FVec Ideal ⟨4, ![B, C, 512, 512]⟩ .f32) (b : Fin B) (c : Fin C) (i j : Fin 512) : EReal :=
  Ideal.sqrt (max (rowDot x x b c i i + rowDot y y b c j j - Ideal.ofBits .f32 0x40000000#32 * rowDot x y b c i j)
    (Ideal.ofBits .f32 0x00000000#32))

/-- The symmetric Hausdorff distance between the rows of the two images (b, c): the larger of the two directed distances. -/
def hausdorff (x y : FVec Ideal ⟨4, ![B, C, 512, 512]⟩ .f32) (b : Fin B) (c : Fin C) : EReal :=
  max
    (Finset.univ.fold max (Ideal.ofBits .f32 0xFF800000#32) fun i : Fin 512 =>
      Finset.univ.fold min (Ideal.ofBits .f32 0x7F800000#32) fun j : Fin 512 => dist x y b c i j)
    (Finset.univ.fold max (Ideal.ofBits .f32 0xFF800000#32) fun j : Fin 512 =>
      Finset.univ.fold min (Ideal.ofBits .f32 0x7F800000#32) fun i : Fin 512 => dist x y b c i j)

/-- Four numbers laid in lanes 0, 1, 2, 3 of a row of 128 lanes, zero in every other lane. -/
def laneVal (a b c d : EReal) (l : Fin 128) : EReal :=
  if l.val = 0 then a else if l.val = 1 then b else if l.val = 2 then c else if l.val = 3 then d
  else Ideal.ofBits .f32 0x00000000#32

/-- The per-image numbers of a batch pair, packed: at (b, c, 0, l) lane l of image (b, c)'s four numbers. -/
def packed (x y : FVec Ideal ⟨4, ![B, C, 512, 512]⟩ .f32) : FVec Ideal ⟨4, ![B, C, 1, 128]⟩ .f32 := fun q =>
  laneVal (dotSlice x y (q 0) (q 1)) (sumSlice x (q 0) (q 1)) (sumSlice y (q 0) (q 1)) (hausdorff x y (q 0) (q 1)) (q 3)

/-- The closing arithmetic. With `inter`, `sx`, `sy` the per-batch-entry sums of the product and of either batch, and `hd` the
    per-image distances: the dice loss of entry b is 1 - (2 inter b + eps) / (sx b + sy b + eps); the result is
    0.4 times the mean of the dice losses over the 32 entries plus 0.6 times the mean of the 96 distances. -/
def lossOf (hb : (⟨0, ![]⟩ : Shape).BroadcastsInDim ⟨1, ![32]⟩ (![] : Fin 0 → Fin (⟨1, ![32]⟩ : Shape).rank))
    (h0 : (⟨1, ![32]⟩ : Shape).ReducesTo [0] ⟨0, ![]⟩) (h01 : (⟨2, ![32, 3]⟩ : Shape).ReducesTo [0, 1] ⟨0, ![]⟩)
    (hS : 0 < (⟨0, ![]⟩ : Shape).numel)
    (inter sx sy : FVec Ideal ⟨1, ![32]⟩ .f32) (hd : FVec Ideal ⟨2, ![32, 3]⟩ .f32) : FVec Ideal ⟨0, ![]⟩ .f32 :=
  addf
    (mulf (constant (F := Ideal) ⟨0, ![]⟩ .f32 0x3ECCCCCD#32)
      (Host.divf
        (Host.reduceAdd
          (subf (broadcastInDim ⟨1, ![32]⟩ ![] hb (constant (F := Ideal) ⟨0, ![]⟩ .f32 0x3F800000#32))
            (Host.divf
              (addf (mulf (broadcastInDim ⟨1, ![32]⟩ ![] hb (constant (F := Ideal) ⟨0, ![]⟩ .f32 0x40000000#32)) inter)
                (broadcastInDim ⟨1, ![32]⟩ ![] hb (constant (F := Ideal) ⟨0, ![]⟩ .f32 0x3727C5AC#32)))
              (addf (addf sx sy) (broadcastInDim ⟨1, ![32]⟩ ![] hb (constant (F := Ideal) ⟨0, ![]⟩ .f32 0x3727C5AC#32)))))
          (constant (F := Ideal) ⟨0, ![]⟩ .f32 0x00000000#32) h0 hS)
        (constant (F := Ideal) ⟨0, ![]⟩ .f32 0x42000000#32)))
    (mulf (constant (F := Ideal) ⟨0, ![]⟩ .f32 0x3F19999A#32)
      (Host.divf (Host.reduceAdd hd (constant (F := Ideal) ⟨0, ![]⟩ .f32 0x00000000#32) h01 hS)
        (constant (F := Ideal) ⟨0, ![]⟩ .f32 0x42C00000#32)))

/-- The per-image numbers depend only on the image: two batches that agree on image (b', c') of one and (b, c) of the other
    have the same numbers there. -/
theorem dotSlice_congr {B' C' : ℕ} (x y : FVec Ideal ⟨4, ![B, C, 512, 512]⟩ .f32) (x' y' : FVec Ideal ⟨4, ![B', C', 512, 512]⟩ .f32)
    (b : Fin B) (c : Fin C) (b' : Fin B') (c' : Fin C')
    (hx : ∀ i j, x' (ix4 b' c' i j) = x (ix4 b c i j)) (hy : ∀ i j, y' (ix4 b' c' i j) = y (ix4 b c i j)) :
    dotSlice x' y' b' c' = dotSlice x y b c := by
  unfold dotSlice
  exact Finset.sum_congr rfl fun i _ => Finset.sum_congr rfl fun j _ => by rw [hx, hy]

theorem sumSlice_congr {B' C' : ℕ} (x : FVec Ideal ⟨4, ![B, C, 512, 512]⟩ .f32) (x' : FVec Ideal ⟨4, ![B', C', 512, 512]⟩ .f32)
    (b : Fin B) (c : Fin C) (b' : Fin B') (c' : Fin C') (hx : ∀ i j, x' (ix4 b' c' i j) = x (ix4 b c i j)) :
    sumSlice x' b' c' = sumSlice x b c := by
  unfold sumSlice
  exact Finset.sum_congr rfl fun i _ => Finset.sum_congr rfl fun j _ => hx i j

theorem rowDot_congr {B' C' : ℕ} (x y : FVec Ideal ⟨4, ![B, C, 512, 512]⟩ .f32) (x' y' : FVec Ideal ⟨4, ![B', C', 512, 512]⟩ .f32)
    (b : Fin B) (c : Fin C) (b' : Fin B') (c' : Fin C')
    (hx : ∀ i j, x' (ix4 b' c' i j) = x (ix4 b c i j)) (hy : ∀ i j, y' (ix4 b' c' i j) = y (ix4 b c i j)) (i j : Fin 512) :
    rowDot x' y' b' c' i j = rowDot x y b c i j := by
  unfold rowDot
  exact Finset.sum_congr rfl fun w _ => by rw [hx, hy]

theorem hausdorff_congr {B' C' : ℕ} (x y : FVec Ideal ⟨4, ![B, C, 512, 512]⟩ .f32) (x' y' : FVec Ideal ⟨4, ![B', C', 512, 512]⟩ .f32)
    (b : Fin B) (c : Fin C) (b' : Fin B') (c' : Fin C')
    (hx : ∀ i j, x' (ix4 b' c' i j) = x (ix4 b c i j)) (hy : ∀ i j, y' (ix4 b' c' i j) = y (ix4 b c i j)) :
    hausdorff x' y' b' c' = hausdorff x y b c := by
  have hd : ∀ i j, dist x' y' b' c' i j = dist x y b c i j := fun i j => by
    unfold dist
    rw [rowDot_congr x x x' x' b c b' c' hx hx, rowDot_congr y y y' y' b c b' c' hy hy, rowDot_congr x y x' y' b c b' c' hx hy]
  unfold hausdorff
  simp only [hd]

end Cert.LossSpec

end
-- ==== Proof.LibMatmulNT.lean ====
/-
  A matrix product that contracts the LAST axis of both operands, read at an index. For dimension numbers that contract
  axis 1 of an [M, K] left operand with axis 1 of an [N, K] right operand (no batch axes) — the left operand times the
  transpose of the right one — a matrix-unit product into the zero accumulator, over the extended reals, has at (p, q)
  the sum over k of left (p, k) times right (q, k): row p of the left operand against row q of the right operand.
-/
import Idealize.ShloMosaic.Lib.ValueIdx
import Idealize.ShloMosaic.PureOps.Ideal.Laws

noncomputable section

namespace Cert.LibMatmulNT

open Idealize.ShloMosaic Idealize.ShloMosaic.ValueIdx

variable {M K N : Nat}

/-- The dimension numbers of a product contracting both operands' axis 1, as a record over its well-formedness evidence. -/
abbrev ntDims (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

variable (wf : DotDims.WF (⟨2, ![M, K]⟩ : Shape) ⟨2, ![N, K]⟩ ⟨2, ![M, N]⟩ [1] [1] [0] [0] [] [])

/-- The left operand's row axis reads the result's row coordinate. -/
theorem lhs_axis0 (j : (⟨2, ![M, N]⟩ : Shape).Idx) (q : (ntDims wf).contr.Idx) :
    ((ntDims wf).lhsIdx j q 0).val = (j 0).val := by
  unfold DotDims.lhsIdx
  rw [dif_neg (show ¬(0 : Fin (⟨2, ![M, K]⟩ : Shape).rank) ∈ (ntDims wf).lhsBatch from List.not_mem_nil),
    dif_pos (show (0 : Fin (⟨2, ![M, K]⟩ : Shape).rank) ∈ (ntDims wf).lhsNonContracting from List.mem_singleton.mpr rfl)]
  rfl
/-- The left operand's contracted axis reads the contraction coordinate. -/
theorem lhs_axis1 (j : (⟨2, ![M, N]⟩ : Shape).Idx) (q : (ntDims wf).contr.Idx) :
    ((ntDims wf).lhsIdx j q 1).val = (q ⟨0, Nat.one_pos⟩).val :=
  (ntDims wf).lhsIdx_val_of_single rfl j q
/-- The right operand's row axis reads the result's COLUMN coordinate: the right operand enters transposed. -/
theorem rhs_axis0 (j : (⟨2, ![M, N]⟩ : Shape).Idx) (q : (ntDims wf).contr.Idx) :
    ((ntDims wf).rhsIdx j q 0).val = (j 1).val := by
  unfold DotDims.rhsIdx
  rw [dif_neg (show ¬(0 : Fin (⟨2, ![N, K]⟩ : Shape).rank) ∈ (ntDims wf).rhsBatch from List.not_mem_nil),
    dif_pos (show (0 : Fin (⟨2, ![N, K]⟩ : Shape).rank) ∈ (ntDims wf).rhsNonContracting from List.mem_singleton.mpr rfl)]
  rfl
/-- The right operand's contracted axis reads the contraction coordinate. -/
theorem rhs_axis1 (j : (⟨2, ![M, N]⟩ : Shape).Idx) (q : (ntDims wf).contr.Idx) :
    ((ntDims wf).rhsIdx j q 1).val = (q ⟨0, Nat.one_pos⟩).val :=
  (ntDims wf).rhsIdx_val_of_single rfl j q

/-- THE PRODUCT AT (p, q), into the zero accumulator: the sum over the shared last coordinate. -/
theorem matmul_zero_nt_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (ntDims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k := funext fun a => Fin.ext (by
    match a with
    | ⟨0, _⟩ => exact lhs_axis0 wf _ _
    | ⟨1, _⟩ => exact (lhs_axis1 wf _ _).trans hk)
  have er : (ntDims wf).rhsIdx (ix2 p q) ((contrEquiv1 (ntDims wf) K rfl rfl).symm k) = ix2 q k := funext fun a => Fin.ext (by
    match a with
    | ⟨0, _⟩ => exact rhs_axis0 wf _ _
    | ⟨1, _⟩ => exact (rhs_axis1 wf _ _).trans hk)
  rw [el, er]

end Cert.LibMatmulNT

end
-- ==== Proof.LibRowSum.lean ====
/-
  A lane sum read at an index given by coordinates: for an `[a, b]` array summed over its last axis, over the extended
  reals, the entry `p` of the result is the sum over `k` of the array at `(p, k)`.
-/
import Idealize.ShloMosaic.Lib.ValueIdx
import Idealize.ShloMosaic.PureOps.Ideal.Laws

noncomputable section

namespace Cert.LibRowSum

open Idealize.ShloMosaic Idealize.ShloMosaic.ValueIdx

/-- A `vector.multi_reduction <add>` over axis 1 of an `[a, b]` array reads, at `p`, the sum of row `p`. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun ax => Fin.ext (by
    match ax with
    | ⟨0, _⟩ => rfl
    | ⟨1, _⟩ => rfl))

end Cert.LibRowSum

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelBody.lean ====
/-
  What the kernel body computes from its two input blocks, at the extended reals: lane l of the 128-lane row it stores.

  The road, one array entry at a time. A block of one image is read as a 512 x 512 matrix. The three sums are row sums
  summed again. The matrix of distances has at (i, j) the root of |u|^2 + |v|^2 - 2 u.v clamped at zero, u row i of the
  first block and v row j of the second: the squared norms are row sums of squares laid along columns and along rows, the
  inner products the product of the first matrix with the transpose of the second. The two directed distances are a
  maximum over a row of minima taken along rows, and along columns, of that matrix; the stored number is the larger.
  Last, four selects against the lane counter put the four numbers in lanes 0 to 3 and zero in every other lane.
-/
import proofs.«142572_j44796508897917_1_alg».proof.Proof.Gen.KernelIdeal.Skeleton
import proofs.«142572_j44796508897917_1_alg».proof.Proof.LossSpec
import proofs.«142572_j44796508897917_1_alg».proof.Proof.LibMatmulNT
import proofs.«142572_j44796508897917_1_alg».proof.Proof.LibRowSum
import proofs.«142572_j44796508897917_1_alg».proof.Proof.LibKeepdims
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert

/-- A block of one image, viewed as a 512 x 512 matrix, reads the block's pixel (0, 0, i, j) at (i, j): the cast drops the
    two leading unit axes and keeps the row-major position. -/
theorem pay2_apply (X : Vec Ideal S1x1x512x512 .f32) (i j : Fin 512) :
    k0_pay2 (F := Ideal) X (ix2 i j) = X (ix4 0 0 i j) := by
  unfold k0_pay2
  refine shapeCast_apply _ _ _ _ ?_
  rw [Shape.rowMajor_val_four, Shape.rowMajor_val_two]
  show ((0 * 1 + 0) * 512 + i.val) * 512 + j.val = i.val * 512 + j.val
  omega

theorem pay3_apply (X : Vec Ideal S1x1x512x512 .f32) (i j : Fin 512) :
    k0_pay3 (F := Ideal) X (ix2 i j) = X (ix4 0 0 i j) := pay2_apply X i j

/-- A vector of 512 numbers laid as one row of 512 reads its entry j at (0, j). -/
theorem row_apply {α : Type} (v : S512.Idx → α) (u : Fin 1) (j : Fin 512) :
    shapeCast S1x512 v shapeCasts_S512_S1x512 (ix2 u j) = v (ix1 j) := by
  refine shapeCast_apply _ _ _ _ ?_
  rw [Shape.rowMajor_val_one, Shape.rowMajor_val_two]
  have hu : u.val = 0 := by omega
  show j.val = u.val * 512 + j.val
  omega

/-- The sum of a vector of 512 numbers as the kernel takes it: laid as one row, summed along the row, and the one
    entry of the result read out. -/
theorem total_apply (v : FVec Ideal S512 .f32) :
    extractAt ![0, 0]
        (shapeCast S1x1 (multiReduction .add [1] S1 (shapeCast S1x512 v shapeCasts_S512_S1x512) 0x00000000#32
          reduces_S1x512_S1 (.inl rfl) rfl) shapeCasts_S1_S1x1) inpos_S1x1_p0_0
      = ∑ i : Fin 512, v (ix1 i) := by
  unfold extractAt
  refine (LibKeepdims.shapeCast_a_a1_apply _ shapeCasts_S1_S1x1 (0 : Fin 1) (0 : Fin 1)).trans ?_
  refine (LibRowSum.multiReduction_add_rows _ _ reduces_S1x512_S1 (.inl rfl) rfl (0 : Fin 1)).trans ?_
  exact Finset.sum_congr rfl fun i _ => row_apply v 0 i

/-- The first packed number: the sum over all pixels of the product of the two blocks. -/
theorem pay4_eq (X0 X1 : Vec Ideal S1x1x512x512 .f32) :
    k0_pay4 (F := Ideal) X0 X1 = LossSpec.dotSlice X0 X1 0 0 := by
  unfold k0_pay4 LossSpec.dotSlice
  refine (total_apply _).trans ?_
  refine Finset.sum_congr rfl fun i _ => ?_
  refine (LibRowSum.multiReduction_add_rows _ _ reduces_S512x512_S512 (.inl rfl) rfl i).trans ?_
  refine Finset.sum_congr rfl fun j _ => ?_
  rw [mulf_apply, pay2_apply, pay3_apply]

/-- The second and third packed numbers: the sum of one block's pixels. -/
theorem pay5_eq (X0 : Vec Ideal S1x1x512x512 .f32) : k0_pay5 (F := Ideal) X0 = LossSpec.sumSlice X0 0 0 := by
  unfold k0_pay5 LossSpec.sumSlice
  refine (total_apply _).trans ?_
  refine Finset.sum_congr rfl fun i _ => ?_
  refine (LibRowSum.multiReduction_add_rows _ _ reduces_S512x512_S512 (.inl rfl) rfl i).trans ?_
  exact Finset.sum_congr rfl fun j _ => pay2_apply X0 i j

theorem pay6_eq (X1 : Vec Ideal S1x1x512x512 .f32) : k0_pay6 (F := Ideal) X1 = LossSpec.sumSlice X1 0 0 := by
  unfold k0_pay6 LossSpec.sumSlice
  refine (total_apply _).trans ?_
  refine Finset.sum_congr rfl fun i _ => ?_
  refine (LibRowSum.multiReduction_add_rows _ _ reduces_S512x512_S512 (.inl rfl) rfl i).trans ?_
  exact Finset.sum_congr rfl fun j _ => pay3_apply X1 i j

/-- A vector of 512 numbers laid as a column and repeated along every column of a 512 x 512 matrix reads its entry i at (i, j). -/
theorem col_bcast_apply {α : Type} (v : S512.Idx → α) (i j : Fin 512) :
    broadcastTo S512x512 (shapeCast S512x1 v shapeCasts_S512_S512x1) broadcasts_S512x1_S512x512 (ix2 i j) = v (ix1 i) :=
  (LibKeepdims.broadcastTo_a1_ab_apply _ _ i j).trans (LibKeepdims.shapeCast_a_a1_apply v _ i 0)

/-- A vector of 512 numbers laid as a row and repeated along every row of a 512 x 512 matrix reads its entry j at (i, j). -/
theorem row_bcast_apply {α : Type} (v : S512.Idx → α) (i j : Fin 512) :
    broadcastTo S512x512 (shapeCast S1x512 v shapeCasts_S512_S1x512) broadcasts_S1x512_S512x512 (ix2 i j) = v (ix1 j) := by
  refine (broadcastTo_apply _ _ (ix2 i j) (ix2 (0 : Fin 1) j) fun ax => ?_).trans (row_apply v 0 j)
  match ax with
  | ⟨0, _⟩ => rfl
  | ⟨1, _⟩ => rfl

/-- The sum along row i of the pointwise product of two 512 x 512 matrices. -/
theorem prod_rows (A B : FVec Ideal S512x512 .f32) (i : Fin 512) :
    multiReduction .add [1] S512 (mulf A B) 0x00000000#32 reduces_S512x512_S512 (.inl rfl) rfl (ix1 i)
      = ∑ k : Fin 512, A (ix2 i k) * B (ix2 i k) :=
  LibRowSum.multiReduction_add_rows _ _ reduces_S512x512_S512 (.inl rfl) rfl i

/-- The product of the first matrix with the transpose of the second reads, at (i, j), row i against row j. -/
theorem nt_apply (A B : FVec Ideal S512x512 .f32) (i j : Fin 512) :
    matmul dot_S512x512_S512x512_S512x512_1_1_0_0_n_n (some .fp32) A B (constant S512x512 .f32 0x00000000#32) (ix2 i j)
      = ∑ k : Fin 512, A (ix2 i k) * B (ix2 j k) :=
  LibMatmulNT.matmul_zero_nt_apply dot_S512x512_S512x512_S512x512_1_1_0_0_n_n_wf (some .fp32) A B i j

/-- The matrix of distances: entry (i, j) is the distance between row i of the first block and row j of the second, from
    the expansion of the squared norm of a difference, clamped at zero under the root. -/
theorem pay7_apply (X0 X1 : Vec Ideal S1x1x512x512 .f32) (i j : Fin 512) :
    k0_pay7 (F := Ideal) X0 X1 (ix2 i j) = LossSpec.dist X0 X1 0 0 i j := by
  unfold k0_pay7 LossSpec.dist
  dsimp only
  show Ideal.sqrt (max (_ + _ - Ideal.ofBits .f32 0x40000000#32 * _) (Ideal.ofBits .f32 0x00000000#32)) = _
  rw [col_bcast_apply, row_bcast_apply, prod_rows, prod_rows, nt_apply]
  unfold LossSpec.rowDot
  simp only [pay2_apply, pay3_apply]

/-- The minimum along row i of a 512 x 512 matrix: the fold of min, from the top element, over the row's entries. -/
theorem min_rows (A : FVec Ideal S512x512 .f32) (i : Fin 512) :
    multiReduction .minimumf [1] S512 A 0x7F800000#32 reduces_S512x512_S512 (.inl rfl) rfl (ix1 i)
      = Finset.univ.fold min (Ideal.ofBits .f32 0x7F800000#32) fun j : Fin 512 => A (ix2 i j) := by
  refine (multiReduction_minimumf_eq_fold A _ reduces_S512x512_S512 (.inl rfl) rfl (ix1 i)).trans ?_
  refine (reduces_S512x512_S512.fold_filter_drop_single _ _ A (ix1 i)).trans ?_
  exact congrArg (fun f => Finset.fold min (Ideal.ofBits .f32 0x7F800000#32) f Finset.univ)
    (funext fun k => congrArg A (funext fun ax => Fin.ext (by
      match ax with
      | ⟨0, _⟩ => rfl
      | ⟨1, _⟩ => rfl)))

/-- The minimum down column j of a 512 x 512 matrix: the fold of min, from the top element, over the column's entries. -/
theorem min_cols (A : FVec Ideal S512x512 .f32) (j : Fin 512) :
    multiReduction .minimumf [0] S512 A 0x7F800000#32 reduces_S512x512_S512_2 (.inl rfl) rfl (ix1 j)
      = Finset.univ.fold min (Ideal.ofBits .f32 0x7F800000#32) fun i : Fin 512 => A (ix2 i j) := by
  refine (multiReduction_minimumf_eq_fold A _ reduces_S512x512_S512_2 (.inl rfl) rfl (ix1 j)).trans ?_
  refine (reduces_S512x512_S512_2.fold_filter_drop_single _ _ A (ix1 j)).trans ?_
  exact congrArg (fun f => Finset.fold min (Ideal.ofBits .f32 0x7F800000#32) f Finset.univ)
    (funext fun k => congrArg A (funext fun ax => Fin.ext (by
      match ax with
      | ⟨0, _⟩ => rfl
      | ⟨1, _⟩ => rfl)))

/-- The maximum of a row of 512 numbers as the kernel takes it: reduced along the row, and the one entry of the result
    read out: the fold of max, from the bottom element, over the row's entries. -/
theorem rowmax_apply (w : FVec Ideal S1x512 .f32) :
    extractAt ![0, 0]
        (shapeCast S1x1 (multiReduction .maximumf [1] S1 w 0xFF800000#32 reduces_S1x512_S1 (.inl rfl) rfl)
          shapeCasts_S1_S1x1) inpos_S1x1_p0_0
      = Finset.univ.fold max (Ideal.ofBits .f32 0xFF800000#32) fun j : Fin 512 => w (ix2 (0 : Fin 1) j) := by
  unfold extractAt
  refine (LibKeepdims.shapeCast_a_a1_apply _ shapeCasts_S1_S1x1 (0 : Fin 1) (0 : Fin 1)).trans ?_
  refine (Ideal.multiReduction_maximumf_single w _ reduces_S1x512_S1 (.inl rfl) rfl (ix1 (0 : Fin 1))).trans ?_
  exact congrArg (fun f => Finset.fold max (Ideal.ofBits .f32 0xFF800000#32) f Finset.univ)
    (funext fun k => congrArg w (funext fun ax => Fin.ext (by
      match ax with
      | ⟨0, _⟩ => rfl
      | ⟨1, _⟩ => rfl)))

/-- The row of directed nearest distances: entry i is the least distance from row i of the first block to a row of the second. -/
theorem pay8_apply (X0 X1 : Vec Ideal S1x1x512x512 .f32) (u : Fin 1) (i : Fin 512) :
    k0_pay8 (F := Ideal) X0 X1 (ix2 u i)
      = Finset.univ.fold min (Ideal.ofBits .f32 0x7F800000#32) fun j : Fin 512 => LossSpec.dist X0 X1 0 0 i j := by
  unfold k0_pay8
  refine (row_apply _ u i).trans ?_
  refine (min_rows _ i).trans ?_
  exact congrArg (fun f => Finset.fold min (Ideal.ofBits .f32 0x7F800000#32) f Finset.univ)
    (funext fun j => pay7_apply X0 X1 i j)

/-- A select on "lane l is the constant c", both below 128, is the `if` on l = c: the two 32-bit words are equal exactly when
    the two small numbers are. -/
theorem select_lane {α : Type} (l c : Nat) (hl : l < 128) (hc : c < 128) (x y : α) :
    Scalar.select (IntOp.cmpi .eq (BitVec.ofNat 32 l) (BitVec.ofNat 32 c)) x y = if l = c then x else y := by
  by_cases h : l = c
  · subst h
    rw [if_pos rfl]
    have e : IntOp.cmpi .eq (BitVec.ofNat 32 l) (BitVec.ofNat 32 l) = 1#1 := by simp [IntOp.cmpi]
    rw [e]; exact select_one x y
  · rw [if_neg h]
    have hne : BitVec.ofNat 32 l ≠ BitVec.ofNat 32 c := fun e => h (by
      have := congrArg BitVec.toNat e
      simp only [BitVec.toNat_ofNat] at this
      omega)
    have hb : (BitVec.ofNat 32 l == BitVec.ofNat 32 c) = false := beq_eq_false_iff_ne.mpr hne
    have e : IntOp.cmpi .eq (BitVec.ofNat 32 l) (BitVec.ofNat 32 c) = 0#1 := by
      show BitVec.ofBool (BitVec.ofNat 32 l == BitVec.ofNat 32 c) = 0#1
      rw [hb]; rfl
    rw [e]; exact select_zero x y

/-- Four numbers selected into lanes 0, 1, 2, 3 of a row of 128 lanes against the lane counter, zero elsewhere, read at lane l. -/
theorem lanes_apply (a b c d : EReal) (l : Fin 128) :
    select (cmpi .eq (iota .tc S1x128 32 [1] iota_S1x128_d1_w32) (broadcast S1x128 0#32)) (broadcast S1x128 a)
      (select (cmpi .eq (iota .tc S1x128 32 [1] iota_S1x128_d1_w32) (broadcast S1x128 1#32)) (broadcast S1x128 b)
        (select (cmpi .eq (iota .tc S1x128 32 [1] iota_S1x128_d1_w32) (broadcast S1x128 2#32)) (broadcast S1x128 c)
          (select (cmpi .eq (iota .tc S1x128 32 [1] iota_S1x128_d1_w32) (broadcast S1x128 3#32)) (broadcast S1x128 d)
            (broadcast S1x128 (Scalar.ofBits (F := Ideal) .f32 0x00000000#32))))) (ix2 (0 : Fin 1) l)
      = LossSpec.laneVal a b c d l := by
  have hi : iota .tc S1x128 32 [1] iota_S1x128_d1_w32 (ix2 (0 : Fin 1) l) = BitVec.ofNat 32 l.val :=
    iota_single_apply .tc S1x128 32 1 iota_S1x128_d1_w32 (ix2 (0 : Fin 1) l)
  show Scalar.select (IntOp.cmpi .eq (iota .tc S1x128 32 [1] iota_S1x128_d1_w32 (ix2 (0 : Fin 1) l)) (BitVec.ofNat 32 0)) a
      (Scalar.select (IntOp.cmpi .eq (iota .tc S1x128 32 [1] iota_S1x128_d1_w32 (ix2 (0 : Fin 1) l)) (BitVec.ofNat 32 1)) b
        (Scalar.select (IntOp.cmpi .eq (iota .tc S1x128 32 [1] iota_S1x128_d1_w32 (ix2 (0 : Fin 1) l)) (BitVec.ofNat 32 2)) c
          (Scalar.select (IntOp.cmpi .eq (iota .tc S1x128 32 [1] iota_S1x128_d1_w32 (ix2 (0 : Fin 1) l)) (BitVec.ofNat 32 3)) d
            (Ideal.ofBits .f32 0x00000000#32)))) = _
  rw [hi, select_lane l.val 0 l.isLt (by omega), select_lane l.val 1 l.isLt (by omega), select_lane l.val 2 l.isLt (by omega),
    select_lane l.val 3 l.isLt (by omega)]
  rfl

/-- The first directed distance: the largest, over the rows of the first block, of the least distance to a row of the second. -/
theorem dir1_eq (X0 X1 : Vec Ideal S1x1x512x512 .f32) :
    extractAt ![0, 0]
        (shapeCast S1x1 (multiReduction .maximumf [1] S1 (k0_pay8 (F := Ideal) X0 X1) 0xFF800000#32 reduces_S1x512_S1 (.inl rfl) rfl)
          shapeCasts_S1_S1x1) inpos_S1x1_p0_0
      = Finset.univ.fold max (Ideal.ofBits .f32 0xFF800000#32) fun i : Fin 512 =>
          Finset.univ.fold min (Ideal.ofBits .f32 0x7F800000#32) fun j : Fin 512 => LossSpec.dist X0 X1 0 0 i j :=
  (rowmax_apply _).trans (congrArg (fun f => Finset.fold max (Ideal.ofBits .f32 0xFF800000#32) f Finset.univ)
    (funext fun i => pay8_apply X0 X1 0 i))

/-- Entry j of the row of column minima of the distance matrix: the least distance from a row of the first block to row j
    of the second. -/
theorem colmin_apply (X0 X1 : Vec Ideal S1x1x512x512 .f32) (u : Fin 1) (j : Fin 512) :
    shapeCast S1x512 (multiReduction .minimumf [0] S512 (k0_pay7 (F := Ideal) X0 X1) 0x7F800000#32 reduces_S512x512_S512_2 (.inl rfl) rfl)
        shapeCasts_S512_S1x512 (ix2 u j)
      = Finset.univ.fold min (Ideal.ofBits .f32 0x7F800000#32) fun i : Fin 512 => LossSpec.dist X0 X1 0 0 i j := by
  refine (row_apply _ u j).trans ?_
  refine (min_cols _ j).trans ?_
  exact congrArg (fun f => Finset.fold min (Ideal.ofBits .f32 0x7F800000#32) f Finset.univ)
    (funext fun i => pay7_apply X0 X1 i j)

/-- The second directed distance: the largest, over the rows of the second block, of the least distance to a row of the first. -/
theorem dir2_eq (X0 X1 : Vec Ideal S1x1x512x512 .f32) :
    extractAt ![0, 0]
        (shapeCast S1x1 (multiReduction .maximumf [1] S1
          (shapeCast S1x512 (multiReduction .minimumf [0] S512 (k0_pay7 (F := Ideal) X0 X1) 0x7F800000#32 reduces_S512x512_S512_2 (.inl rfl) rfl)
            shapeCasts_S512_S1x512) 0xFF800000#32 reduces_S1x512_S1 (.inl rfl) rfl)
          shapeCasts_S1_S1x1) inpos_S1x1_p0_0
      = Finset.univ.fold max (Ideal.ofBits .f32 0xFF800000#32) fun j : Fin 512 =>
          Finset.univ.fold min (Ideal.ofBits .f32 0x7F800000#32) fun i : Fin 512 => LossSpec.dist X0 X1 0 0 i j :=
  (rowmax_apply _).trans (congrArg (fun f => Finset.fold max (Ideal.ofBits .f32 0xFF800000#32) f Finset.univ)
    (funext fun j => colmin_apply X0 X1 0 j))

/-- The fourth packed number: the larger of the two directed distances between the rows of the two blocks. -/
theorem hd_eq (X0 X1 : Vec Ideal S1x1x512x512 .f32) :
    Scalar.maximumf
        (extractAt ![0, 0]
          (shapeCast S1x1 (multiReduction .maximumf [1] S1 (k0_pay8 (F := Ideal) X0 X1) 0xFF800000#32 reduces_S1x512_S1 (.inl rfl) rfl)
            shapeCasts_S1_S1x1) inpos_S1x1_p0_0)
        (extractAt ![0, 0]
          (shapeCast S1x1 (multiReduction .maximumf [1] S1
            (shapeCast S1x512 (multiReduction .minimumf [0] S512 (k0_pay7 (F := Ideal) X0 X1) 0x7F800000#32 reduces_S512x512_S512_2 (.inl rfl) rfl)
              shapeCasts_S512_S1x512) 0xFF800000#32 reduces_S1x512_S1 (.inl rfl) rfl)
            shapeCasts_S1_S1x1) inpos_S1x1_p0_0)
      = LossSpec.hausdorff X0 X1 0 0 := by
  unfold LossSpec.hausdorff
  rw [dir1_eq, dir2_eq, Ideal.scalar_maximumf_def]

/-- The stored row: lanes 0 to 3 hold the block pair's product sum, the two block sums and the Hausdorff distance of the
    blocks' rows; every other lane holds zero. -/
theorem pay_lane (X0 X1 : Vec Ideal S1x1x512x512 .f32) (q : S1x1x1x128.Idx) :
    k0_pay1 (F := Ideal) (k0_pay4 X0 X1) (k0_pay5 X0) (k0_pay6 X1) (k0_pay7 X0 X1) (k0_pay8 X0 X1) q
      = LossSpec.laneVal (LossSpec.dotSlice X0 X1 0 0) (LossSpec.sumSlice X0 0 0) (LossSpec.sumSlice X1 0 0)
          (LossSpec.hausdorff X0 X1 0 0) (q 3) := by
  rw [pay4_eq, pay5_eq, pay6_eq]
  unfold k0_pay1
  dsimp only
  -- the stored [1,1,1,128] block reads the 128-lane row at lane (q 3)
  refine (shapeCast_apply _ _ q (ix2 (0 : Fin 1) (q 3)) ?_).trans ?_
  · rw [Shape.rowMajor_val_two, Shape.rowMajor_val_four]
    have h0 : (q 0).val = 0 := by have : (q 0).val < 1 := (q 0).isLt; omega
    have h1 : (q 1).val = 0 := by have : (q 1).val < 1 := (q 1).isLt; omega
    have h2 : (q 2).val = 0 := by have : (q 2).val < 1 := (q 2).isLt; omega
    show 0 * 128 + (q 3).val = (((q 0).val * 1 + (q 1).val) * 1 + (q 2).val) * 128 + (q 3).val
    rw [h0, h1, h2]
  · -- the four selects against the lane counter, then the fourth number
    refine (lanes_apply _ _ _ _ (q 3)).trans ?_
    rw [hd_eq]

end Cert.KernelIdeal.Body

end
-- ==== Proof.KernelArray.lean ====
/-
  The array the kernel leaves after all 96 grid points: the packed per-image numbers of the two argument batches.

  Grid point t works on image (b, c) of either batch (a 512 x 512 block) and writes the 128-lane row (b, c) of the
  output. The body's row is the packed numbers of its two blocks; a block is the image itself, so the row is the
  specification's row of the whole batches; and the 96 rows tile the output array.
-/
import proofs.«142572_j44796508897917_1_alg».proof.Proof.Gen.KernelIdeal.Frame
import proofs.«142572_j44796508897917_1_alg».proof.Proof.KernelBody
import proofs.«142572_j44796508897917_1_alg».proof.Proof.LossSpec
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert
open Idealize.ShloMosaic.Pipeline (Dat Cfg Window)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The three index maps over the grid: at every point the two input blocks are image (b, c) and the output block is
    row (b, c), for the same b < 32 and c < 3; on the two trailing axes every block index is 0. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 32 ∧ win0_2.index t (1 : Fin 4) < 3 :=
  (by decide +kernel : ∀ t : Fin grid0.N, _)

/-- Every row (b, c) is some point's output block. -/
theorem index_onto : ∀ (b : Fin 32) (c : Fin 3), ∃ t : Fin cfg0.N, win0_2.index t = ![b.val, c.val, 0, 0] :=
  (by decide +kernel : ∀ (b : Fin 32) (c : Fin 3), ∃ t : Fin grid0.N, win0_2.index t = ![b.val, c.val, 0, 0])

/-- Input window w's block at point t, at pixel (i, j), is the argument batch at (b, c, i, j). -/
theorem block0_apply (c : Dev nD) (t : Fin cfg0.N) (b : Fin 32) (k : Fin 3) (hb : b.val = win0_2.index t (0 : Fin 4))
    (hk : k.val = win0_2.index t (1 : Fin 4)) (i j : Fin 512) :
    iblk m c 0 t (ix4 0 0 i j) = V m c main_arg0 (ix4 b k i j) := by
  obtain ⟨e0, e1, e2, e3, -⟩ := index_facts t
  show V m c main_arg0 (((cfg0.win 0).blk t).view.emb (ix4 0 0 i j)) = V m c main_arg0 (ix4 b k i j)
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = k.val; omega
  | ⟨2, _⟩ => show win0_0.index t (2 : Fin 4) * 512 + 1 * i.val = i.val; omega
  | ⟨3, _⟩ => show win0_0.index t (3 : Fin 4) * 512 + 1 * j.val = j.val; omega

theorem block1_apply (c : Dev nD) (t : Fin cfg0.N) (b : Fin 32) (k : Fin 3) (hb : b.val = win0_2.index t (0 : Fin 4))
    (hk : k.val = win0_2.index t (1 : Fin 4)) (i j : Fin 512) :
    iblk m c 1 t (ix4 0 0 i j) = V m c main_arg1 (ix4 b k i j) := by
  obtain ⟨-, -, -, -, e0, e1, e2, e3, -⟩ := index_facts t
  show V m c main_arg1 (((cfg0.win 1).blk t).view.emb (ix4 0 0 i j)) = V m c main_arg1 (ix4 b k i j)
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = k.val; omega
  | ⟨2, _⟩ => show win0_1.index t (2 : Fin 4) * 512 + 1 * i.val = i.val; omega
  | ⟨3, _⟩ => show win0_1.index t (3 : Fin 4) * 512 + 1 * j.val = j.val; omega

/-- WHAT POINT t WRITES BACK: row (b, c) of the packed numbers of the two argument batches. -/
theorem flushed_eq (c : Dev nD) (t : Fin cfg0.N) :
    (dats m 0 c).flushed 2 t
      = ((cfg0.win 2).blk t).view.read (Elt Ideal) (LossSpec.packed (V m c main_arg0) (V m c main_arg1)) := by
  show (cfg0.win 2).cut (grid0.coords t) ((dats m 0 c).after 2 t) = _
  rw [after0_2]
  unfold out0_2
  rw [View.canon_unit_zero offsets_zero]
  simp only [View.ld_unit_zero (S := S1x1x512x512) offsets_zero]
  funext q
  obtain ⟨-, -, -, -, -, -, -, -, -, e3, -⟩ := index_facts t
  show k0_pay1 (F := Ideal) (k0_pay4 (iblk m c 0 t) (iblk m c 1 t)) (k0_pay5 (iblk m c 0 t)) (k0_pay6 (iblk m c 1 t))
      (k0_pay7 (iblk m c 0 t) (iblk m c 1 t)) (k0_pay8 (iblk m c 0 t) (iblk m c 1 t)) q
    = LossSpec.packed (V m c main_arg0) (V m c main_arg1) (((cfg0.win 2).blk t).view.emb q)
  rw [Body.pay_lane]
  unfold LossSpec.packed
  have hq0 : (q 0).val < 1 := (q 0).isLt
  have hq1 : (q 1).val < 1 := (q 1).isLt
  have hb : ((((cfg0.win 2).blk t).view.emb q) 0).val = win0_2.index t (0 : Fin 4) := by
    show win0_2.index t (0 : Fin 4) * 1 + 1 * (q 0).val = _; omega
  have hk : ((((cfg0.win 2).blk t).view.emb q) 1).val = win0_2.index t (1 : Fin 4) := by
    show win0_2.index t (1 : Fin 4) * 1 + 1 * (q 1).val = _; omega
  have hl : (((cfg0.win 2).blk t).view.emb q) 3 = q 3 := Fin.ext (by
    show win0_2.index t (3 : Fin 4) * 128 + 1 * (q 3).val = (q 3).val; omega)
  rw [hl,
    LossSpec.dotSlice_congr (V m c main_arg0) (V m c main_arg1) (iblk m c 0 t) (iblk m c 1 t) _ _ 0 0
      (block0_apply m c t _ _ hb hk) (block1_apply m c t _ _ hb hk),
    LossSpec.sumSlice_congr (V m c main_arg0) (iblk m c 0 t) _ _ 0 0 (block0_apply m c t _ _ hb hk),
    LossSpec.sumSlice_congr (V m c main_arg1) (iblk m c 1 t) _ _ 0 0 (block1_apply m c t _ _ hb hk),
    LossSpec.hausdorff_congr (V m c main_arg0) (V m c main_arg1) (iblk m c 0 t) (iblk m c 1 t) _ _ 0 0
      (block0_apply m c t _ _ hb hk) (block1_apply m c t _ _ hb hk)]

/-- An index of the output array is in point t's block iff each coordinate is in the block's range on its axis. -/
theorem mem_blk (t : Fin cfg0.N) (i : S32x3x1x128.Idx) :
    i ∈ ((cfg0.win 2).blk t).view.set ↔ ∀ a : Fin 4, win0_2.index t a * S1x1x1x128.size a ≤ (i a).val
      ∧ (i a).val < win0_2.index t a * S1x1x1x128.size a + S1x1x1x128.size a := by
  show i ∈ ((View.whole main_v0).slice (win0_2.rect t)).set ↔ _
  rw [View.set_slice_whole, Rect.mem_set_unit]
  exact Iff.rfl

/-- The 96 rows tile the output array: every index lies in the block of the point that works on its row. -/
theorem cover (i : S32x3x1x128.Idx) : ∃ t : Fin cfg0.N, (cfg0.win 2).flush t = true ∧ i ∈ ((cfg0.win 2).blk t).view.set := by
  obtain ⟨t, ht⟩ := index_onto (i 0) (i 1)
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  have h2 : (i 2).val < 1 := (i 2).isLt
  have h3 : (i 3).val < 128 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1 ≤ (i 2).val ∧ (i 2).val < win0_2.index t (2 : Fin 4) * 1 + 1; omega
  | ⟨3, _⟩ => show win0_2.index t (3 : Fin 4) * 128 ≤ (i 3).val ∧ (i 3).val < win0_2.index t (3 : Fin 4) * 128 + 128; omega

/-- THE OUTPUT ARRAY after the last point: the packed numbers of the two argument batches. -/
theorem final (c : Dev nD) :
    (dats m 0 c).arrAt 2 cfg0.N = LossSpec.packed (V m c main_arg0) (V m c main_arg1) :=
  (dats m 0 c).arrAt_eq_of_cover 2 (LossSpec.packed (V m c main_arg0) (V m c main_arg1))
    (fun t _ => flushed_eq m c t) cover

end Cert.KernelIdeal.Whole

end
-- ==== Proof.KernelRun.lean ====
/-
  The kernel program's run, read at its result: the closing arithmetic applied to the per-batch-entry sums and the
  per-image distances that the host lines after the launch slice out of the packed array.
-/
import proofs.«142572_j44796508897917_1_alg».proof.Proof.KernelArray
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert

variable (m : (ℓ : Loc nD τ sig) → Buf (Elt Ideal) ℓ) (ρ : Dev nD → PrngReg)

/-- The closing arithmetic on lane columns of a packed array: the sums over the three images of lanes 0, 1, 2 per batch
    entry, and lane 3 per image. -/
def lossOfPacked (out : FVec Ideal S32x3x1x128 .f32) : FVec Ideal S_ .f32 :=
  LossSpec.lossOf bcast_S_S32 reducesTo_S32_S_d0 reducesTo_S32x3_S_d0_1 h_S_
    (Host.reduceAdd (shapeCast S32x3 (extractStridedSlice S32x3x1x1 ![0, 0, 0, 0] out slices_S32x3x1x128_S32x3x1x1_0_0_0_0) shapeCasts_S32x3x1x1_S32x3)
      (constant (F := Ideal) S_ .f32 0x00000000#32) reducesTo_S32x3_S32_d1 h_S_)
    (Host.reduceAdd (shapeCast S32x3 (extractStridedSlice S32x3x1x1 ![0, 0, 0, 1] out slices_S32x3x1x128_S32x3x1x1_0_0_0_1) shapeCasts_S32x3x1x1_S32x3)
      (constant (F := Ideal) S_ .f32 0x00000000#32) reducesTo_S32x3_S32_d1 h_S_)
    (Host.reduceAdd (shapeCast S32x3 (extractStridedSlice S32x3x1x1 ![0, 0, 0, 2] out slices_S32x3x1x128_S32x3x1x1_0_0_0_2) shapeCasts_S32x3x1x1_S32x3)
      (constant (F := Ideal) S_ .f32 0x00000000#32) reducesTo_S32x3_S32_d1 h_S_)
    (shapeCast S32x3 (extractStridedSlice S32x3x1x1 ![0, 0, 0, 3] out slices_S32x3x1x128_S32x3x1x1_0_0_0_3) shapeCasts_S32x3x1x1_S32x3)

set_option maxHeartbeats 4000000 in
/-- The host lines after the launch, run from any buffer contents, leave in the result buffer the closing arithmetic on
    what the launch's output array holds. -/
theorem tail_after (W : Valuation τ sig (Elt Ideal)) :
    StableHlo.after (hostOps1 (F := Ideal)) W (Proc.devRef .tc main_v28) = lossOfPacked (W (Proc.devRef .tc main_v0)) := by
  after_results
  rfl

set_option maxHeartbeats 4000000 in
/-- After the launch that array holds the packed numbers of the two argument batches. -/
theorem tail_eq (c : Dev nD) :
    Pipeline.afterTail₀ cfgs (dats m) 0 (V0 m) [hostOps1] c main_v28
      = lossOfPacked (LossSpec.packed (V m c main_arg0) (V m c main_arg1)) := by
  unfold Pipeline.afterTail₀
  show StableHlo.after (hostOps1 (F := Ideal)) _ (Proc.devRef .tc main_v28) = _
  rw [tail_after]
  exact congrArg lossOfPacked ((Pipeline.withArrays_arr spec0 launch0.win.arr_inj c _ _ 2).trans (final m c))

/-- THE KERNEL PROGRAM'S RUN: every weakly fair execution ends with the result buffer at the closing arithmetic on the packed
    numbers of the two argument batches, and the arguments unchanged. -/
theorem run : θ_run defs (onTc (τ := τ) (main (F := Ideal))) ⟨m, fun _ => 0, ρ⟩ fun r => ∀ c : Dev nD,
      r.2.mem ((c.tc : Thread nD τ).loc main_v28)
        = lossOfPacked (LossSpec.packed (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v28 (Pipeline.mem_restRefs_of main_v28 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Whole

end
-- ==== Proof.PackedColumns.lean ====
/-
  Lane columns of a packed array. Slicing lane k out of every 128-lane row of a [B, C, 1, 128] array and dropping the two unit
  axes gives the [B, C] array of that lane; summing it over C gives one number per leading coordinate. Read on the packed
  numbers of two batches: lanes 0, 1, 2 are the per-image product sum and pixel sums, lane 3 the per-image distance.
-/
import proofs.«142572_j44796508897917_1_alg».proof.Proof.LossSpec
import Idealize.ShloMosaic.Lib.Pipeline.Value
import Idealize.ShloMosaic.PureOps.Ideal.Laws

noncomputable section

namespace Cert.LossSpec

open Idealize.ShloMosaic Idealize.ShloMosaic.ValueIdx

/-- Lane k of row (b, c), through the slice and the cast that drops the unit axes. -/
theorem laneCol_apply {B C : ℕ} (k : ℕ) (hk : k < 128) (out : FVec Ideal ⟨4, ![B, C, 1, 128]⟩ .f32)
    (hs : (⟨4, ![B, C, 1, 128]⟩ : Shape).Slices ![0, 0, 0, k] ⟨4, ![B, C, 1, 1]⟩)
    (hc : (⟨4, ![B, C, 1, 1]⟩ : Shape).ShapeCasts ⟨2, ![B, C]⟩) (b : Fin B) (c : Fin C) :
    shapeCast ⟨2, ![B, C]⟩ (extractStridedSlice ⟨4, ![B, C, 1, 1]⟩ ![0, 0, 0, k] out hs) hc (ix2 b c)
      = out (ix4 b c 0 ⟨k, hk⟩) := by
  refine (shapeCast_apply _ hc (ix2 b c) (ix4 b c 0 0) ?_).trans
    (extractStridedSlice_apply _ out hs (ix4 b c 0 0) (ix4 b c 0 ⟨k, hk⟩) fun a => ?_)
  · rw [Shape.rowMajor_val_four, Shape.rowMajor_val_two]
    show ((b.val * C + c.val) * 1 + 0) * 1 + 0 = b.val * C + c.val
    omega
  · match a with
    | ⟨0, _⟩ => show b.val = 0 + b.val; omega
    | ⟨1, _⟩ => show c.val = 0 + c.val; omega
    | ⟨2, _⟩ => show 0 = 0 + 0; rfl
    | ⟨3, _⟩ => show k = k + 0; rfl

/-- The sum over the three images of lane k, per batch entry. -/
theorem laneSum_apply (k : ℕ) (hk : k < 128) (out : FVec Ideal ⟨4, ![32, 3, 1, 128]⟩ .f32)
    (hs : (⟨4, ![32, 3, 1, 128]⟩ : Shape).Slices ![0, 0, 0, k] ⟨4, ![32, 3, 1, 1]⟩)
    (hc : (⟨4, ![32, 3, 1, 1]⟩ : Shape).ShapeCasts ⟨2, ![32, 3]⟩)
    (hr : (⟨2, ![32, 3]⟩ : Shape).ReducesTo [1] ⟨1, ![32]⟩) (hS : 0 < (⟨0, ![]⟩ : Shape).numel)
    (i : (⟨1, ![32]⟩ : Shape).Idx) :
    Host.reduceAdd (shapeCast ⟨2, ![32, 3]⟩ (extractStridedSlice ⟨4, ![32, 3, 1, 1]⟩ ![0, 0, 0, k] out hs) hc)
        (constant (F := Ideal) ⟨0, ![]⟩ .f32 0x00000000#32) hr hS i
      = ∑ c : Fin 3, out (ix4 (i 0) c 0 ⟨k, hk⟩) := by
  simp only [Host.reduceAdd, Ideal.hostReduceAdd_def]
  rw [Ideal.hostReduceAdd_single hr (by decide), constant_apply, Ideal.ofBits_zero_f32, zero_add]
  refine Finset.sum_congr rfl fun c _ => ?_
  refine Eq.trans (congrArg _ (funext fun a => Fin.ext ?_)) (laneCol_apply k hk out hs hc (i 0) c)
  match a with
  | ⟨0, _⟩ => rfl
  | ⟨1, _⟩ => rfl

variable {B C : ℕ} (x y : FVec Ideal ⟨4, ![B, C, 512, 512]⟩ .f32) (b : Fin B) (c : Fin C)

/-- A row of the packed numbers is the four numbers of its image pair, lane by lane. -/
theorem packed_row (l : Fin 128) : packed x y (ix4 b c 0 l)
    = laneVal (dotSlice x y b c) (sumSlice x b c) (sumSlice y b c) (hausdorff x y b c) l := rfl

theorem packed_lane0 : packed x y (ix4 b c 0 ⟨0, by decide⟩) = dotSlice x y b c := by
  rw [packed_row]; unfold laneVal; rw [if_pos rfl]
theorem packed_lane1 : packed x y (ix4 b c 0 ⟨1, by decide⟩) = sumSlice x b c := by
  rw [packed_row]; unfold laneVal; rw [if_neg (by decide), if_pos rfl]
theorem packed_lane2 : packed x y (ix4 b c 0 ⟨2, by decide⟩) = sumSlice y b c := by
  rw [packed_row]; unfold laneVal; rw [if_neg (by decide), if_neg (by decide), if_pos rfl]
theorem packed_lane3 : packed x y (ix4 b c 0 ⟨3, by decide⟩) = hausdorff x y b c := by
  rw [packed_row]; unfold laneVal; rw [if_neg (by decide), if_neg (by decide), if_neg (by decide), if_pos rfl]

end Cert.LossSpec

namespace Cert.LossSpec

open Idealize.ShloMosaic Idealize.ShloMosaic.ValueIdx

variable (x y : FVec Ideal ⟨4, ![32, 3, 512, 512]⟩ .f32)

/-- Per batch entry, the sum over its three images of the product sums. -/
def interB : FVec Ideal ⟨1, ![32]⟩ .f32 := fun i => ∑ c : Fin 3, dotSlice x y (i 0) c
/-- Per batch entry, the sum over its three images of the pixel sums. -/
def sumB : FVec Ideal ⟨1, ![32]⟩ .f32 := fun i => ∑ c : Fin 3, sumSlice x (i 0) c
/-- Per image, the symmetric distance. -/
def hdBC : FVec Ideal ⟨2, ![32, 3]⟩ .f32 := fun i => hausdorff x y (i 0) (i 1)

variable (hc : (⟨4, ![32, 3, 1, 1]⟩ : Shape).ShapeCasts ⟨2, ![32, 3]⟩)
  (hr : (⟨2, ![32, 3]⟩ : Shape).ReducesTo [1] ⟨1, ![32]⟩) (hS : 0 < (⟨0, ![]⟩ : Shape).numel)

/-- Lane 0 of the packed numbers, summed over the three images, is the per-entry product sum. -/
theorem laneSum0_packed (hs : (⟨4, ![32, 3, 1, 128]⟩ : Shape).Slices ![0, 0, 0, 0] ⟨4, ![32, 3, 1, 1]⟩) :
    Host.reduceAdd (shapeCast ⟨2, ![32, 3]⟩ (extractStridedSlice ⟨4, ![32, 3, 1, 1]⟩ ![0, 0, 0, 0] (packed x y) hs) hc)
        (constant (F := Ideal) ⟨0, ![]⟩ .f32 0x00000000#32) hr hS = interB x y :=
  funext fun i => (laneSum_apply 0 (by decide) _ hs hc hr hS i).trans
    (Finset.sum_congr rfl fun c _ => packed_lane0 x y (i 0) c)

/-- Lane 1 likewise is the per-entry pixel sum of the first batch. -/
theorem laneSum1_packed (hs : (⟨4, ![32, 3, 1, 128]⟩ : Shape).Slices ![0, 0, 0, 1] ⟨4, ![32, 3, 1, 1]⟩) :
    Host.reduceAdd (shapeCast ⟨2, ![32, 3]⟩ (extractStridedSlice ⟨4, ![32, 3, 1, 1]⟩ ![0, 0, 0, 1] (packed x y) hs) hc)
        (constant (F := Ideal) ⟨0, ![]⟩ .f32 0x00000000#32) hr hS = sumB x :=
  funext fun i => (laneSum_apply 1 (by decide) _ hs hc hr hS i).trans
    (Finset.sum_congr rfl fun c _ => packed_lane1 x y (i 0) c)

/-- Lane 2 likewise, of the second batch. -/
theorem laneSum2_packed (hs : (⟨4, ![32, 3, 1, 128]⟩ : Shape).Slices ![0, 0, 0, 2] ⟨4, ![32, 3, 1, 1]⟩) :
    Host.reduceAdd (shapeCast ⟨2, ![32, 3]⟩ (extractStridedSlice ⟨4, ![32, 3, 1, 1]⟩ ![0, 0, 0, 2] (packed x y) hs) hc)
        (constant (F := Ideal) ⟨0, ![]⟩ .f32 0x00000000#32) hr hS = sumB y :=
  funext fun i => (laneSum_apply 2 (by decide) _ hs hc hr hS i).trans
    (Finset.sum_congr rfl fun c _ => packed_lane2 x y (i 0) c)

/-- Lane 3 of the packed numbers is the per-image distance. -/
theorem laneCol3_packed (hs : (⟨4, ![32, 3, 1, 128]⟩ : Shape).Slices ![0, 0, 0, 3] ⟨4, ![32, 3, 1, 1]⟩) :
    shapeCast ⟨2, ![32, 3]⟩ (extractStridedSlice ⟨4, ![32, 3, 1, 1]⟩ ![0, 0, 0, 3] (packed x y) hs) hc = hdBC x y :=
  funext fun i => by
    obtain ⟨p, q, rfl⟩ : ∃ (p : Fin 32) (q : Fin 3), i = ix2 p q := ⟨i 0, i 1, eq_ix2 i⟩
    exact (laneCol_apply 3 (by decide) _ hs hc p q).trans (packed_lane3 x y p q)

end Cert.LossSpec

end
-- ==== Proof.KernelResult.lean ====
/-
  The kernel program's result in the specification's terms: the closing arithmetic on the per-entry sums and per-image
  distances of the two argument batches.
-/
import proofs.«142572_j44796508897917_1_alg».proof.Proof.KernelRun
import proofs.«142572_j44796508897917_1_alg».proof.Proof.PackedColumns

noncomputable section

namespace Cert.KernelIdeal.Whole

open Idealize.ShloMosaic Cert.KernelIdeal Cert.KernelIdeal.Gen Cert

/-- On the packed numbers of two batches the lane columns are the specification's arrays. -/
theorem lossOfPacked_packed (x y : FVec Ideal S32x3x512x512 .f32) :
    lossOfPacked (LossSpec.packed x y)
      = LossSpec.lossOf bcast_S_S32 reducesTo_S32_S_d0 reducesTo_S32x3_S_d0_1 h_S_
          (LossSpec.interB x y) (LossSpec.sumB x) (LossSpec.sumB y) (LossSpec.hdBC x y) := by
  unfold lossOfPacked
  rw [LossSpec.laneSum0_packed, LossSpec.laneSum1_packed, LossSpec.laneSum2_packed, LossSpec.laneCol3_packed]

end Cert.KernelIdeal.Whole

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.RefStages.lean ====
/-
  The reference's intermediate arrays, at the extended reals, as the per-image numbers of the specification.
-/
import proofs.«142572_j44796508897917_1_alg».proof.Proof.Gen.ReferenceIdeal.Read
import proofs.«142572_j44796508897917_1_alg».proof.Proof.LossSpec
import proofs.«142572_j44796508897917_1_alg».proof.Proof.LibSumBlocks

noncomputable section

namespace Cert.ReferenceIdeal.Stages

open Idealize.ShloMosaic Idealize.ShloMosaic.ValueIdx Cert.ReferenceIdeal Cert.ReferenceIdeal.Gen Cert

/-- A sum over the 786432 = 3 * 512 * 512 flat positions of batch entry b, each read at its four coordinates, is the
    triple sum over image c, row r and column w. -/
theorem sum_flat {M : Type*} [AddCommMonoid M] (b : Fin 32) (f : S32x3x512x512.Idx → M) (g : Fin 786432 → S32x3x512x512.Idx)
    (h0 : ∀ k, (g k 0).val = (b.val * 786432 + k.val) / 786432)
    (h1 : ∀ k, (g k 1).val = (b.val * 786432 + k.val) / 262144 % 3)
    (h2 : ∀ k, (g k 2).val = (b.val * 786432 + k.val) / 512 % 512)
    (h3 : ∀ k, (g k 3).val = (b.val * 786432 + k.val) % 512) :
    ∑ k, f (g k) = ∑ c : Fin 3, ∑ r : Fin 512, ∑ w : Fin 512, f (ix4 b c r w) := by
  rw [LibSumBlocks.sum_blocks (a := 3) (b := 262144) (by norm_num) (fun k => f (g k))
    (fun c k' => ⟨262144 * c.val + k'.val, by have := c.isLt; have := k'.isLt; omega⟩) (fun _ _ => rfl)]
  refine Finset.sum_congr rfl fun c _ => ?_
  rw [LibSumBlocks.sum_blocks (a := 512) (b := 512) (by norm_num)
    (fun k' : Fin 262144 => f (g ⟨262144 * c.val + k'.val, by have := c.isLt; have := k'.isLt; omega⟩))
    (fun r w => ⟨512 * r.val + w.val, by have := r.isLt; have := w.isLt; omega⟩) (fun _ _ => rfl)]
  refine Finset.sum_congr rfl fun r _ => Finset.sum_congr rfl fun w _ => congrArg f ?_
  have hb := b.isLt; have hc := c.isLt; have hr := r.isLt; have hw := w.isLt
  funext a
  apply Fin.ext
  match a with
  | ⟨0, _⟩ =>
    refine (h0 _).trans ?_
    show (b.val * 786432 + (262144 * c.val + (512 * r.val + w.val))) / 786432 = b.val
    omega
  | ⟨1, _⟩ =>
    refine (h1 _).trans ?_
    show (b.val * 786432 + (262144 * c.val + (512 * r.val + w.val))) / 262144 % 3 = c.val
    omega
  | ⟨2, _⟩ =>
    refine (h2 _).trans ?_
    show (b.val * 786432 + (262144 * c.val + (512 * r.val + w.val))) / 512 % 512 = r.val
    omega
  | ⟨3, _⟩ =>
    refine (h3 _).trans ?_
    show (b.val * 786432 + (262144 * c.val + (512 * r.val + w.val))) % 512 = w.val
    omega

/-- The flattened sum of the product over batch entry b is the sum over its three images of each image's product sum. -/
theorem inter_eq (x y : (⟨S32x3x512x512, .f32⟩ : BufTy).Contents (Elt Ideal)) (i : S32.Idx) :
    Read.val_main_v3 (F := Ideal) x y i = ∑ c : Fin 3, LossSpec.dotSlice x y (i 0) c := by
  rw [Read.val_main_v3_apply]
  have hz : Read.val_main_cst (F := Ideal) (Shape.Idx.first h_S_) = 0 := Ideal.ofBits_zero_f32
  rw [hz, zero_add]
  simp only [Read.val_main_v2_apply, Read.val_main_v0_apply, Read.val_main_v1_apply]
  exact sum_flat (i 0) (fun j => x j * y j) (fun k => Read.idx_main_v0 (Read.idx_main_v3 i k))
    (fun _ => rfl) (fun _ => rfl) (fun _ => rfl) (fun _ => rfl)

/-- The flattened sum of the first batch over entry b is the sum over its three images of each image's pixel sum. -/
theorem sumx_eq (x : (⟨S32x3x512x512, .f32⟩ : BufTy).Contents (Elt Ideal)) (i : S32.Idx) :
    Read.val_main_v4 (F := Ideal) x i = ∑ c : Fin 3, LossSpec.sumSlice x (i 0) c := by
  rw [Read.val_main_v4_apply]
  have hz : Read.val_main_cst_0 (F := Ideal) (Shape.Idx.first h_S_) = 0 := Ideal.ofBits_zero_f32
  rw [hz, zero_add]
  simp only [Read.val_main_v0_apply]
  exact sum_flat (i 0) (fun j => x j) (fun k => Read.idx_main_v0 (Read.idx_main_v4 i k))
    (fun _ => rfl) (fun _ => rfl) (fun _ => rfl) (fun _ => rfl)

/-- The same for the second batch. -/
theorem sumy_eq (y : (⟨S32x3x512x512, .f32⟩ : BufTy).Contents (Elt Ideal)) (i : S32.Idx) :
    Read.val_main_v5 (F := Ideal) y i = ∑ c : Fin 3, LossSpec.sumSlice y (i 0) c := by
  rw [Read.val_main_v5_apply]
  have hz : Read.val_main_cst_1 (F := Ideal) (Shape.Idx.first h_S_) = 0 := Ideal.ofBits_zero_f32
  rw [hz, zero_add]
  simp only [Read.val_main_v1_apply]
  exact sum_flat (i 0) (fun j => y j) (fun k => Read.idx_main_v1 (Read.idx_main_v5 i k))
    (fun _ => rfl) (fun _ => rfl) (fun _ => rfl) (fun _ => rfl)

/-- The reduction witnesses at the literal shapes. -/
theorem reduces4_d3 : S32x3x512x512.Reduces [3] S32x3x512 := by decide
theorem reduces4_d2 : S32x3x512x512.Reduces [2] S32x3x512 := by decide
theorem reduces3_d2 : S32x3x512.Reduces [2] S32x3 := by decide

/-- Stage 33 at (b, c, r, s): the two rows' squared lengths (each an initial zero plus a sum of squares) added, less twice
    their inner product, clamped at zero, and the root taken — the distance between row r of the first batch's image
    (b, c) and row s of the second's. -/
theorem dist_eq (x y : (⟨S32x3x512x512, .f32⟩ : BufTy).Contents (Elt Ideal)) (b : Fin 32) (c : Fin 3) (r s : Fin 512) :
    Read.val_main_v33 (F := Ideal) x y (ix4 b c r s) = LossSpec.dist x y b c r s := by
  have h19 : ∀ k, Read.idx_main_v19 (Read.idx_main_v23 (Read.idx_main_v25 (ix4 b c r s))) k = ix4 b c r k := fun k =>
    funext fun a => Fin.ext (by match a with | ⟨0, _⟩ => rfl | ⟨1, _⟩ => rfl | ⟨2, _⟩ => rfl | ⟨3, _⟩ => rfl)
  have h21 : ∀ k, Read.idx_main_v21 (Read.idx_main_v24 (Read.idx_main_v26 (ix4 b c r s))) k = ix4 b c s k := fun k =>
    funext fun a => Fin.ext (by match a with | ⟨0, _⟩ => rfl | ⟨1, _⟩ => rfl | ⟨2, _⟩ => rfl | ⟨3, _⟩ => rfl)
  have hl : ∀ k, Read.lidx_main_v22 (ix4 b c r s) k = ix4 b c r k := fun k =>
    funext fun a => Fin.ext (by match a with | ⟨0, _⟩ => rfl | ⟨1, _⟩ => rfl | ⟨2, _⟩ => rfl | ⟨3, _⟩ => rfl)
  have hr : ∀ k, Read.ridx_main_v22 (ix4 b c r s) k = ix4 b c s k := fun k =>
    funext fun a => Fin.ext (by match a with | ⟨0, _⟩ => rfl | ⟨1, _⟩ => rfl | ⟨2, _⟩ => rfl | ⟨3, _⟩ => rfl)
  have hz8 : Read.val_main_cst_8 (F := Ideal) (Shape.Idx.first h_S_) = 0 := Ideal.ofBits_zero_f32
  have hz9 : Read.val_main_cst_9 (F := Ideal) (Shape.Idx.first h_S_) = 0 := Ideal.ofBits_zero_f32
  rw [Read.val_main_v33_apply, Read.val_main_v32_apply, Read.val_main_v31_apply, Read.val_main_cst_11_apply,
    Read.val_main_v30_apply, Read.val_main_v27_apply, Read.val_main_v29_apply, Read.val_main_v28_apply,
    Read.val_main_cst_10_apply, Read.val_main_v25_apply, Read.val_main_v23_apply, Read.val_main_v19_apply,
    Read.val_main_v26_apply, Read.val_main_v24_apply, Read.val_main_v21_apply, Read.val_main_v22_apply,
    hz8, hz9, zero_add, zero_add]
  simp only [h19, h21, hl, hr, Read.val_main_v18_apply, Read.val_main_v20_apply]
  rfl

/-- Putting coordinate k back on the last axis of (b, c, r) gives (b, c, r, k). -/
theorem lift4_d3 (b : Fin 32) (c : Fin 3) (r : Fin 512) (k : Fin (S32x3x512x512.size 3)) :
    reduces4_d3.lift (ix3 b c r) k = ix4 b c r (⟨k.val, k.isLt⟩ : Fin 512) :=
  funext fun a => Fin.ext (by match a with | ⟨0, _⟩ => rfl | ⟨1, _⟩ => rfl | ⟨2, _⟩ => rfl | ⟨3, _⟩ => rfl)

/-- Putting coordinate k back on axis 2 of (b, c, s) gives (b, c, k, s). -/
theorem lift4_d2 (b : Fin 32) (c : Fin 3) (s : Fin 512) (k : Fin (S32x3x512x512.size 2)) :
    reduces4_d2.lift (ix3 b c s) k = ix4 b c (⟨k.val, k.isLt⟩ : Fin 512) s :=
  funext fun a => Fin.ext (by match a with | ⟨0, _⟩ => rfl | ⟨1, _⟩ => rfl | ⟨2, _⟩ => rfl | ⟨3, _⟩ => rfl)

/-- Putting coordinate k back on the last axis of (b, c) gives (b, c, k). -/
theorem lift3_d2 (b : Fin 32) (c : Fin 3) (k : Fin (S32x3x512.size 2)) :
    reduces3_d2.lift (ix2 b c) k = ix3 b c (⟨k.val, k.isLt⟩ : Fin 512) :=
  funext fun a => Fin.ext (by match a with | ⟨0, _⟩ => rfl | ⟨1, _⟩ => rfl | ⟨2, _⟩ => rfl)

/-- A one-axis reduce of any [32, 3, 512, 512] array over its last axis, with a commutative and associative body, read
    at (b, c, r): the fold from the initial value over s of the array at (b, c, r, s). -/
theorem reduce4_d3_apply (f : Ideal .f32 → Ideal .f32 → Ideal .f32) [Std.Commutative f] [Std.Associative f]
    (z : FVec Ideal S32x3x512x512 .f32) (init : FVec Ideal S_ .f32) (b : Fin 32) (c : Fin 3) (r : Fin 512) :
    Host.reduce f z init reducesTo_S32x3x512x512_S32x3x512_d3 h_S_ (ix3 b c r)
      = Finset.univ.fold f (init (Shape.Idx.first h_S_)) fun s : Fin 512 => z (ix4 b c r s) := by
  rw [Host.reduce_eq_fold_single f z init reducesTo_S32x3x512x512_S32x3x512_d3 reduces4_d3 h_S_]
  have hf : (z ∘ reduces4_d3.lift (ix3 b c r)) = fun s : Fin 512 => z (ix4 b c r s) :=
    funext fun s => congrArg z (lift4_d3 b c r s)
  exact congrArg (fun g => Finset.fold f (init (Shape.Idx.first h_S_)) g Finset.univ) hf

/-- The same over axis 2, read at (b, c, s): the fold over r of the array at (b, c, r, s). -/
theorem reduce4_d2_apply (f : Ideal .f32 → Ideal .f32 → Ideal .f32) [Std.Commutative f] [Std.Associative f]
    (z : FVec Ideal S32x3x512x512 .f32) (init : FVec Ideal S_ .f32) (b : Fin 32) (c : Fin 3) (s : Fin 512) :
    Host.reduce f z init reducesTo_S32x3x512x512_S32x3x512_d2 h_S_ (ix3 b c s)
      = Finset.univ.fold f (init (Shape.Idx.first h_S_)) fun r : Fin 512 => z (ix4 b c r s) := by
  rw [Host.reduce_eq_fold_single f z init reducesTo_S32x3x512x512_S32x3x512_d2 reduces4_d2 h_S_]
  have hf : (z ∘ reduces4_d2.lift (ix3 b c s)) = fun r : Fin 512 => z (ix4 b c r s) :=
    funext fun r => congrArg z (lift4_d2 b c s r)
  exact congrArg (fun g => Finset.fold f (init (Shape.Idx.first h_S_)) g Finset.univ) hf

/-- A one-axis reduce of any [32, 3, 512] array over its last axis, read at (b, c): the fold over k of the array at
    (b, c, k). -/
theorem reduce3_d2_apply (f : Ideal .f32 → Ideal .f32 → Ideal .f32) [Std.Commutative f] [Std.Associative f]
    (z : FVec Ideal S32x3x512 .f32) (init : FVec Ideal S_ .f32) (b : Fin 32) (c : Fin 3) :
    Host.reduce f z init reducesTo_S32x3x512_S32x3_d2 h_S_ (ix2 b c)
      = Finset.univ.fold f (init (Shape.Idx.first h_S_)) fun k : Fin 512 => z (ix3 b c k) := by
  rw [Host.reduce_eq_fold_single f z init reducesTo_S32x3x512_S32x3_d2 reduces3_d2 h_S_]
  have hf : (z ∘ reduces3_d2.lift (ix2 b c)) = fun k : Fin 512 => z (ix3 b c k) :=
    funext fun k => congrArg z (lift3_d2 b c k)
  exact congrArg (fun g => Finset.fold f (init (Shape.Idx.first h_S_)) g Finset.univ) hf

/-- Stage 34 at (b, c, r): from +∞ the minimum over the second image's rows s of the distance from row r. -/
theorem v34_eq (x y : (⟨S32x3x512x512, .f32⟩ : BufTy).Contents (Elt Ideal)) (b : Fin 32) (c : Fin 3) (r : Fin 512) :
    Read.val_main_v34 (F := Ideal) x y (ix3 b c r)
      = Finset.univ.fold min (Ideal.ofBits .f32 0x7F800000#32) fun s : Fin 512 => LossSpec.dist x y b c r s := by
  unfold Read.val_main_v34
  rw [reduce4_d3_apply]
  simp only [dist_eq]
  rfl

/-- Stage 36 at (b, c, s): from +∞ the minimum over the first image's rows r of the distance to row s. -/
theorem v36_eq (x y : (⟨S32x3x512x512, .f32⟩ : BufTy).Contents (Elt Ideal)) (b : Fin 32) (c : Fin 3) (s : Fin 512) :
    Read.val_main_v36 (F := Ideal) x y (ix3 b c s)
      = Finset.univ.fold min (Ideal.ofBits .f32 0x7F800000#32) fun r : Fin 512 => LossSpec.dist x y b c r s := by
  unfold Read.val_main_v36
  rw [reduce4_d2_apply]
  simp only [dist_eq]
  rfl

/-- Stage 35 at (b, c): from −∞ the maximum over the first image's rows r of stage 34 — the directed distance from the
    first image's rows to the second's. -/
theorem v35_eq (x y : (⟨S32x3x512x512, .f32⟩ : BufTy).Contents (Elt Ideal)) (b : Fin 32) (c : Fin 3) :
    Read.val_main_v35 (F := Ideal) x y (ix2 b c)
      = Finset.univ.fold max (Ideal.ofBits .f32 0xFF800000#32) fun r : Fin 512 =>
          Finset.univ.fold min (Ideal.ofBits .f32 0x7F800000#32) fun s : Fin 512 => LossSpec.dist x y b c r s := by
  unfold Read.val_main_v35
  rw [reduce3_d2_apply]
  simp only [v34_eq]
  rfl

/-- Stage 37 at (b, c): from −∞ the maximum over the second image's rows s of stage 36 — the directed distance from the
    second image's rows to the first's. -/
theorem v37_eq (x y : (⟨S32x3x512x512, .f32⟩ : BufTy).Contents (Elt Ideal)) (b : Fin 32) (c : Fin 3) :
    Read.val_main_v37 (F := Ideal) x y (ix2 b c)
      = Finset.univ.fold max (Ideal.ofBits .f32 0xFF800000#32) fun s : Fin 512 =>
          Finset.univ.fold min (Ideal.ofBits .f32 0x7F800000#32) fun r : Fin 512 => LossSpec.dist x y b c r s := by
  unfold Read.val_main_v37
  rw [reduce3_d2_apply]
  simp only [v36_eq]
  rfl

/-- The reference's per-image symmetric distance is the specification's. -/
theorem hd_eq (x y : (⟨S32x3x512x512, .f32⟩ : BufTy).Contents (Elt Ideal)) (i : S32x3.Idx) :
    Read.val_main_v38 (F := Ideal) x y i = LossSpec.hausdorff x y (i 0) (i 1) := by
  have h35 := (congrArg (Read.val_main_v35 (F := Ideal) x y) (eq_ix2 i)).trans (v35_eq x y (i 0) (i 1))
  have h37 := (congrArg (Read.val_main_v37 (F := Ideal) x y) (eq_ix2 i)).trans (v37_eq x y (i 0) (i 1))
  rw [Read.val_main_v38_apply, h35, h37]
  rfl

end Cert.ReferenceIdeal.Stages

end
-- ==== Proof.RefRun.lean ====
/-
  The reference program's result as the closing arithmetic on four of its intermediate arrays — the three flattened sums
  per batch entry and the per-image distances — and each of the four as the specification's array.
-/
import proofs.«142572_j44796508897917_1_alg».proof.Proof.Gen.ReferenceIdeal.Read
import proofs.«142572_j44796508897917_1_alg».proof.Proof.RefStages
import proofs.«142572_j44796508897917_1_alg».proof.Proof.PackedColumns

set_option maxRecDepth 16384

noncomputable section

namespace Cert.ReferenceIdeal.Whole

open Idealize.ShloMosaic Cert.ReferenceIdeal Cert.ReferenceIdeal.Gen Cert

/-- The last stage is the closing arithmetic applied to stages 3, 4, 5 and 38. -/
theorem result_eq (x y : (⟨S32x3x512x512, .f32⟩ : BufTy).Contents (Elt Ideal)) :
    Read.val_main_v43 (F := Ideal) x y
      = LossSpec.lossOf bcast_S_S32 reducesTo_S32_S_d0 reducesTo_S32x3_S_d0_1 h_S_
          (Read.val_main_v3 (F := Ideal) x y) (Read.val_main_v4 (F := Ideal) x) (Read.val_main_v5 (F := Ideal) y)
          (Read.val_main_v38 (F := Ideal) x y) := rfl

/-- Those four stages are the specification's per-entry sums and per-image distances. -/
theorem result_spec (x y : (⟨S32x3x512x512, .f32⟩ : BufTy).Contents (Elt Ideal)) :
    Read.val_main_v43 (F := Ideal) x y
      = LossSpec.lossOf bcast_S_S32 reducesTo_S32_S_d0 reducesTo_S32x3_S_d0_1 h_S_
          (LossSpec.interB x y) (LossSpec.sumB x) (LossSpec.sumB y) (LossSpec.hdBC x y) := by
  rw [result_eq,
    show Read.val_main_v3 (F := Ideal) x y = LossSpec.interB x y from funext (Stages.inter_eq x y),
    show Read.val_main_v4 (F := Ideal) x = LossSpec.sumB x from funext (Stages.sumx_eq x),
    show Read.val_main_v5 (F := Ideal) y = LossSpec.sumB y from funext (Stages.sumy_eq y),
    show Read.val_main_v38 (F := Ideal) x y = LossSpec.hdBC x y from funext (Stages.hd_eq x y)]

end Cert.ReferenceIdeal.Whole

end
-- ==== Proof.lean ====
/-
  A dice and Hausdorff loss of two batches of 32 x 3 images of 512 x 512 pixels, computed two ways.

  The kernel program visits the 96 image pairs one per grid point. For the pair (b, c) it forms, from the two 512 x 512
  blocks, the sum of their pixelwise product, the sum of either block, and the symmetric Hausdorff distance between the
  rows of the two blocks (distances from |u|^2 + |v|^2 - 2 u.v, the cross terms by one matrix product of the first block
  with the transpose of the second), and stores the four numbers in lanes 0 to 3 of row (b, c) of a [32, 3, 1, 128] array.
  Host lines then slice the four lanes out, sum the first three over the three images of each batch entry, and close with
  0.4 * mean_b (1 - (2 inter_b + eps) / (sx_b + sy_b + eps)) + 0.6 * mean_{b,c} hd_{b,c}.

  The reference flattens each batch entry to one axis of 3 * 512 * 512 numbers and sums along it, computes all distances by
  one batched product, reduces them by minima and maxima along the two row axes, and closes with the same arithmetic on the
  same constants.

  Over the extended reals the two agree without any appeal to finiteness of the inputs: a sum over a flattened axis is the
  sum over its images, rows and columns in any grouping (addition is commutative and associative), a minimum or maximum
  along an axis is the fold over that axis's coordinates, the two matrix products are the same sum over the shared column
  coordinate, and the closing arithmetic is literally the same term on both sides.

  The frames of the two kernel programs are the generated ones; the reference's frame is its generated run with the result
  dropped. The ideal pass rewrote nothing, so there is nothing to preserve.
-/
import proofs.«142572_j44796508897917_1_alg».proof.Defs
import proofs.«142572_j44796508897917_1_alg».proof.Proof.Gen.Kernel
import proofs.«142572_j44796508897917_1_alg».proof.Proof.Gen.Kernel.Skeleton
import proofs.«142572_j44796508897917_1_alg».proof.Proof.Gen.Kernel.Launch
import proofs.«142572_j44796508897917_1_alg».proof.Proof.Gen.Kernel.Points
import proofs.«142572_j44796508897917_1_alg».proof.Proof.Gen.Kernel.Frame
import proofs.«142572_j44796508897917_1_alg».proof.Proof.Gen.KernelIdeal
import proofs.«142572_j44796508897917_1_alg».proof.Proof.Gen.KernelIdeal.Skeleton
import proofs.«142572_j44796508897917_1_alg».proof.Proof.Gen.KernelIdeal.Launch
import proofs.«142572_j44796508897917_1_alg».proof.Proof.Gen.KernelIdeal.Points
import proofs.«142572_j44796508897917_1_alg».proof.Proof.Gen.KernelIdeal.Frame
import proofs.«142572_j44796508897917_1_alg».proof.Proof.Gen.ReferenceIdeal
import proofs.«142572_j44796508897917_1_alg».proof.Proof.Gen.Pre_finite_inputs
import proofs.«142572_j44796508897917_1_alg».proof.Proof.Gen.ReferenceIdeal.Run
import proofs.«142572_j44796508897917_1_alg».proof.Proof.Gen.ReferenceIdeal.Read
import proofs.«142572_j44796508897917_1_alg».proof.Proof.KernelResult
import proofs.«142572_j44796508897917_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the closing arithmetic on the per-entry sums and per-image distances of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v43_eq, Cert.ReferenceIdeal.Whole.result_spec,
    Cert.KernelIdeal.Whole.lossOfPacked_packed]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
